-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v2_0)) (v1 : (c : Dev Cert.KernelIdeal.nD) → Buf (Elt Ideal) ((c.tc : Thread Cert.KernelIdeal.nD Cert.KernelIdeal.τ).loc Cert.KernelIdeal.main_v2_1)) (v2 : (c : Dev Cert.KernelIdeal.nD) → Buf (Elt Ideal) ((c.tc : Thread Cert.KernelIdeal.nD Cert.KernelIdeal.τ).loc Cert.KernelIdeal.main_v2_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2_0) = v0 c
          ∧ r.2.mem ((c.tc : Thread Cert.KernelIdeal.nD Cert.KernelIdeal.τ).loc Cert.KernelIdeal.main_v2_1) = v1 c
          ∧ r.2.mem ((c.tc : Thread Cert.KernelIdeal.nD Cert.KernelIdeal.τ).loc Cert.KernelIdeal.main_v2_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v12) = v0 c
          ∧ r.2.mem ((c.tc : Thread Cert.ReferenceIdeal.nD Cert.ReferenceIdeal.τ).loc Cert.ReferenceIdeal.main_v15) = v1 c
          ∧ r.2.mem ((c.tc : Thread Cert.ReferenceIdeal.nD Cert.ReferenceIdeal.τ).loc Cert.ReferenceIdeal.main_v9) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x2048 : Shape := ⟨2, ![4096, 2048]⟩
abbrev S2048x2048 : Shape := ⟨2, ![2048, 2048]⟩
abbrev S2048 : Shape := ⟨1, ![2048]⟩
abbrev S_ : Shape := ⟨0, ![]⟩

class Facts : Prop where
  bcast_S_S4096x2048 : S_.BroadcastsInDim S4096x2048 (![] : Fin 0 → Fin S4096x2048.rank)
  reducesTo_S4096x2048_S_d0_1 : S4096x2048.ReducesTo [0, 1] S_
  h_S_ : 0 < S_.numel
  bcast_S_S2048x2048 : S_.BroadcastsInDim S2048x2048 (![] : Fin 0 → Fin S2048x2048.rank)
  reducesTo_S2048x2048_S_d0_1 : S2048x2048.ReducesTo [0, 1] S_
  bcast_S_S2048 : S_.BroadcastsInDim S2048 (![] : Fin 0 → Fin S2048.rank)
  reducesTo_S2048_S_d0 : S2048.ReducesTo [0] S_

variable [Facts]

def fn_part1 {F : FTy → Type} [FloatOps F] (main_arg4 : FVec F S2048 .f32) (main_v13 : IVec S_ 1) (main_v16 : IVec S2048x2048 1) : IVec S_ 1 :=
  let main_c_5 : IVec S_ 1 := constantI S_ 1 1#1
  let main_v17 : IVec S_ 1 := (fun x v => Host.reduce IntOp.andi x v reducesTo_S2048x2048_S_d0_1 h_S_) main_v16 main_c_5
  let main_v18 : IVec S_ 1 := andi main_v13 main_v17
  let main_v19 : FVec F S2048 .f32 := Host.absf main_arg4
  let main_cst_6 : FVec F S_ .f32 := constant S_ .f32 0x7F800000#32
  let main_v20 : FVec F S2048 .f32 := broadcastInDim S2048 ![] bcast_S_S2048 main_cst_6
  let main_v21 : IVec S2048 1 := cmpf .olt main_v19 main_v20
  let main_c_7 : IVec S_ 1 := constantI S_ 1 1#1
  let main_v22 : IVec S_ 1 := (fun x v => Host.reduce IntOp.andi x v reducesTo_S2048_S_d0 h_S_) main_v21 main_c_7
  let main_v23 : IVec S_ 1 := andi main_v18 main_v22
  main_v23

def fn {F : FTy → Type} [FloatOps F] (main_arg0 : FVec F S4096x2048 .f32) (main_arg1 : FVec F S4096x2048 .f32) (main_arg2 : FVec F S4096x2048 .f32) (main_arg3 : FVec F S2048x2048 .f32) (main_arg4 : FVec F S2048 .f32) : IVec S_ 1 :=
  let main_v0 : FVec F S4096x2048 .f32 := Host.absf main_arg0
  let main_cst : FVec F S_ .f32 := constant S_ .f32 0x7F800000#32
  let main_v1 : FVec F S4096x2048 .f32 := broadcastInDim S4096x2048 ![] bcast_S_S4096x2048 main_cst
  let main_v2 : IVec S4096x2048 1 := cmpf .olt main_v0 main_v1
  let main_c : IVec S_ 1 := constantI S_ 1 1#1
  let main_v3 : IVec S_ 1 := (fun x v => Host.reduce IntOp.andi x v reducesTo_S4096x2048_S_d0_1 h_S_) main_v2 main_c
  let main_v4 : FVec F S4096x2048 .f32 := Host.absf main_arg1
  let main_cst_0 : FVec F S_ .f32 := constant S_ .f32 0x7F800000#32
  let main_v5 : FVec F S4096x2048 .f32 := broadcastInDim S4096x2048 ![] bcast_S_S4096x2048 main_cst_0
  let main_v6 : IVec S4096x2048 1 := cmpf .olt main_v4 main_v5
  let main_c_1 : IVec S_ 1 := constantI S_ 1 1#1
  let main_v7 : IVec S_ 1 := (fun x v => Host.reduce IntOp.andi x v reducesTo_S4096x2048_S_d0_1 h_S_) main_v6 main_c_1
  let main_v8 : IVec S_ 1 := andi main_v3 main_v7
  let main_v9 : FVec F S4096x2048 .f32 := Host.absf main_arg2
  let main_cst_2 : FVec F S_ .f32 := constant S_ .f32 0x7F800000#32
  let main_v10 : FVec F S4096x2048 .f32 := broadcastInDim S4096x2048 ![] bcast_S_S4096x2048 main_cst_2
  let main_v11 : IVec S4096x2048 1 := cmpf .olt main_v9 main_v10
  let main_c_3 : IVec S_ 1 := constantI S_ 1 1#1
  let main_v12 : IVec S_ 1 := (fun x v => Host.reduce IntOp.andi x v reducesTo_S4096x2048_S_d0_1 h_S_) main_v11 main_c_3
  let main_v13 : IVec S_ 1 := andi main_v8 main_v12
  let main_v14 : FVec F S2048x2048 .f32 := Host.absf main_arg3
  let main_cst_4 : FVec F S_ .f32 := constant S_ .f32 0x7F800000#32
  let main_v15 : FVec F S2048x2048 .f32 := broadcastInDim S2048x2048 ![] bcast_S_S2048x2048 main_cst_4
  let main_v16 : IVec S2048x2048 1 := cmpf .olt main_v14 main_v15
  fn_part1 (F := F) main_arg4 main_v13 main_v16
-- ==== Kernel.lean ====
abbrev S4096x2048 : Shape := ⟨2, ![4096, 2048]⟩
abbrev S2048x2048 : Shape := ⟨2, ![2048, 2048]⟩
abbrev S2048 : Shape := ⟨1, ![2048]⟩
abbrev S1x2048 : Shape := ⟨2, ![1, 2048]⟩
abbrev S128x2048 : Shape := ⟨2, ![128, 2048]⟩

abbrev nBuf : Space → Nat
  | .hbm => 10
  | .vmem => 14
  | .smem => 0
  | _ => 0

abbrev bufTy : (tb : Table) → Fin (tcTables nBuf tb) → BufTy
  | .hbm, ⟨0, _⟩ => ⟨S4096x2048, .f32⟩
  | .hbm, ⟨1, _⟩ => ⟨S4096x2048, .f32⟩
  | .hbm, ⟨2, _⟩ => ⟨S4096x2048, .f32⟩
  | .hbm, ⟨3, _⟩ => ⟨S2048x2048, .f32⟩
  | .hbm, ⟨4, _⟩ => ⟨S2048, .f32⟩
  | .hbm, ⟨5, _⟩ => ⟨S2048x2048, .bf16⟩
  | .hbm, ⟨6, _⟩ => ⟨S1x2048, .f32⟩
  | .hbm, ⟨7, _⟩ => ⟨S4096x2048, .f32⟩
  | .hbm, ⟨8, _⟩ => ⟨S4096x2048, .f32⟩
  | .hbm, ⟨9, _⟩ => ⟨S4096x2048, .f32⟩
  | .local _ .vmem, ⟨0, _⟩ => ⟨S128x2048, .f32⟩
  | .local _ .vmem, ⟨1, _⟩ => ⟨S128x2048, .f32⟩
  | .local _ .vmem, ⟨2, _⟩ => ⟨S128x2048, .f32⟩
  | .local _ .vmem, ⟨3, _⟩ => ⟨S128x2048, .f32⟩
  | .local _ .vmem, ⟨4, _⟩ => ⟨S128x2048, .f32⟩
  | .local _ .vmem, ⟨5, _⟩ => ⟨S128x2048, .f32⟩
  | .local _ .vmem, ⟨6, _⟩ => ⟨S2048x2048, .bf16⟩
  | .local _ .vmem, ⟨7, _⟩ => ⟨S1x2048, .f32⟩
  | .local _ .vmem, ⟨8, _⟩ => ⟨S128x2048, .f32⟩
  | .local _ .vmem, ⟨9, _⟩ => ⟨S128x2048, .f32⟩
  | .local _ .vmem, ⟨10, _⟩ => ⟨S128x2048, .f32⟩
  | .local _ .vmem, ⟨11, _⟩ => ⟨S128x2048, .f32⟩
  | .local _ .vmem, ⟨12, _⟩ => ⟨S128x2048, .f32⟩
  | .local _ .vmem, ⟨13, _⟩ => ⟨S128x2048, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2_0 : Ref sig .tc := ⟨.hbm, 7, rfl⟩
abbrev main_v2_1 : Ref sig .tc := ⟨.hbm, 8, rfl⟩
abbrev main_v2_2 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S2048x2048 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S128x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S128x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

class Facts₀ : Prop where
  bitsLt_bf16_f32 : FTy.bits .bf16 < FTy.bits .f32
  shapeCasts_S2048_S1x2048 : S2048.ShapeCasts S1x2048
  inb_S128x2048_S128x2048_0_0 : ∀ a, (![0, 0] : Fin 2 → Nat) a + S128x2048.size a ≤ S128x2048.size a
  h_S128x2048 : 0 < S128x2048.numel
  inb_S2048x2048_S2048x2048_0_0 : ∀ a, (![0, 0] : Fin 2 → Nat) a + S2048x2048.size a ≤ S2048x2048.size a
  h_S2048x2048 : 0 < S2048x2048.numel
  shapeCasts_S2048x2048_S2048x2048 : S2048x2048.ShapeCasts S2048x2048
  inb_S1x2048_S1x2048_0_0 : ∀ a, (![0, 0] : Fin 2 → Nat) a + S1x2048.size a ≤ S1x2048.size a
  h_S1x2048 : 0 < S1x2048.numel
  shapeCasts_S1x2048_S1x2048 : S1x2048.ShapeCasts S1x2048
  broadcasts_S1x2048_S128x2048 : S1x2048.Broadcasts S128x2048
  natLt_1_32 : 1 < 32
  dot_S128x2048_S2048x2048_S128x2048_1_0_0_1_n_n_wf : DotDims.WF S128x2048 S2048x2048 S128x2048 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S128x2048.size a ≤ S4096x2048.size a
  hwx0_0 : ∀ i : grid0.Coords, EltTy.bits .f32 = 32 ∨ (Rect.block (s := S4096x2048) S128x2048.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S128x2048.size a ≤ S4096x2048.size a
  hwx0_1 : ∀ i : grid0.Coords, EltTy.bits .f32 = 32 ∨ (Rect.block (s := S4096x2048) S128x2048.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S128x2048.size a ≤ S4096x2048.size a
  hwx0_2 : ∀ i : grid0.Coords, EltTy.bits .f32 = 32 ∨ (Rect.block (s := S4096x2048) S128x2048.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S2048x2048.size a ≤ S2048x2048.size a
  hwx0_3 : ∀ i : grid0.Coords, EltTy.bits .bf16 = 32 ∨ (Rect.block (s := S2048x2048) S2048x2048.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x2048.size a ≤ S1x2048.size a
  hwx0_4 : ∀ i : grid0.Coords, EltTy.bits .f32 = 32 ∨ (Rect.block (s := S1x2048) S1x2048.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S128x2048.size a ≤ S4096x2048.size a
  hwx0_5 : ∀ i : grid0.Coords, EltTy.bits .f32 = 32 ∨ (Rect.block (s := S4096x2048) S128x2048.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S128x2048.size a ≤ S4096x2048.size a
  hwx0_6 : ∀ i : grid0.Coords, EltTy.bits .f32 = 32 ∨ (Rect.block (s := S4096x2048) S128x2048.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S128x2048.size a ≤ S4096x2048.size a
  hwx0_7 : ∀ i : grid0.Coords, EltTy.bits .f32 = 32 ∨ (Rect.block (s := S4096x2048) S128x2048.size (cc0_transform_7 i) (hinb0_7 i)).WholeWords (EltTy.packing .f32)

variable [Facts₀]

def dot_S128x2048_S2048x2048_S128x2048_1_0_0_1_n_n : DotDims S128x2048 S2048x2048 S128x2048 where
  lhsContracting := [1]
  rhsContracting := [0]
  lhsNonContracting := [0]
  rhsNonContracting := [1]
  lhsBatch := []
  rhsBatch := []
  wf := dot_S128x2048_S2048x2048_S128x2048_1_0_0_1_n_n_wf

abbrev win0_0 : Pipeline.Window sig grid0 :=
  Pipeline.Window.ofSpec (Memref.whole main_arg0) S128x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S128x2048.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S128x2048.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0) S2048x2048.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v1) S1x2048.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v2_0) S128x2048.size cc0_transform_5 reads0_5 true false 2 stage0_5 sem0_5
    hrank0 hreads0_5 hinb0_5 nbuf0_5 (Memref.isWhole_whole _) hwx0_5 hstage0_5

abbrev win0_6 : Pipeline.Window sig grid0 :=
  Pipeline.Window.ofSpec (Memref.whole main_v2_1) S128x2048.size cc0_transform_6 reads0_6 true false 2 stage0_6 sem0_6
    hrank0 hreads0_6 hinb0_6 nbuf0_6 (Memref.isWhole_whole _) hwx0_6 hstage0_6

abbrev win0_7 : Pipeline.Window sig grid0 :=
  Pipeline.Window.ofSpec (Memref.whole main_v2_2) S128x2048.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

class Facts : Prop extends Facts₀ where

variable [Facts]
-- ==== ReferenceIdeal.lean ====
abbrev S4096x2048 : Shape := ⟨2, ![4096, 2048]⟩
abbrev S2048x2048 : Shape := ⟨2, ![2048, 2048]⟩
abbrev S2048 : Shape := ⟨1, ![2048]⟩
abbrev S_ : Shape := ⟨0, ![]⟩
abbrev S1x2048 : Shape := ⟨2, ![1, 2048]⟩

abbrev nBuf : Space → Nat
  | .hbm => 25
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S4096x2048, .f32⟩
  | .hbm, ⟨2, _⟩ => ⟨S4096x2048, .f32⟩
  | .hbm, ⟨3, _⟩ => ⟨S2048x2048, .f32⟩
  | .hbm, ⟨4, _⟩ => ⟨S2048, .f32⟩
  | .hbm, ⟨5, _⟩ => ⟨S_, .f32⟩
  | .hbm, ⟨6, _⟩ => ⟨S4096x2048, .f32⟩
  | .hbm, ⟨7, _⟩ => ⟨S4096x2048, .f32⟩
  | .hbm, ⟨8, _⟩ => ⟨S4096x2048, .f32⟩
  | .hbm, ⟨9, _⟩ => ⟨S4096x2048, .f32⟩
  | .hbm, ⟨10, _⟩ => ⟨S1x2048, .f32⟩
  | .hbm, ⟨11, _⟩ => ⟨S4096x2048, .f32⟩
  | .hbm, ⟨12, _⟩ => ⟨S4096x2048, .f32⟩
  | .hbm, ⟨13, _⟩ => ⟨S_, .f32⟩
  | .hbm, ⟨14, _⟩ => ⟨S4096x2048, .f32⟩
  | .hbm, ⟨15, _⟩ => ⟨S4096x2048, .i1⟩
  | .hbm, ⟨16, _⟩ => ⟨S4096x2048, .f32⟩
  | .hbm, ⟨17, _⟩ => ⟨S_, .f32⟩
  | .hbm, ⟨18, _⟩ => ⟨S4096x2048, .f32⟩
  | .hbm, ⟨19, _⟩ => ⟨S4096x2048, .f32⟩
  | .hbm, ⟨20, _⟩ => ⟨S4096x2048, .f32⟩
  | .hbm, ⟨21, _⟩ => ⟨S_, .f32⟩
  | .hbm, ⟨22, _⟩ => ⟨S4096x2048, .f32⟩
  | .hbm, ⟨23, _⟩ => ⟨S4096x2048, .f32⟩
  | .hbm, ⟨24, _⟩ => ⟨S4096x2048, .f32⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst_0 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_cst_1 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst_2 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩

abbrev nD : Nat := 1
abbrev τ : Topo := Topo.v7x

variable {F : FTy → Type} [FloatOps F]

class Facts₀ : Prop where
  bcast_S_S4096x2048 : S_.BroadcastsInDim S4096x2048 (![] : Fin 0 → Fin S4096x2048.rank)
  bcast_S2048_S1x2048_1 : S2048.BroadcastsInDim S1x2048 (![1] : Fin 1 → Fin S1x2048.rank)
  bcast_S1x2048_S4096x2048_0_1 : S1x2048.BroadcastsInDim S4096x2048 (![0, 1] : Fin 2 → Fin S4096x2048.rank)
  dot_S4096x2048_S2048x2048_S4096x2048_1_0_0_1_n_n_wf : DotDims.WF S4096x2048 S2048x2048 S4096x2048 [1] [0] [0] [1] [] []

variable [Facts₀]

def dot_S4096x2048_S2048x2048_S4096x2048_1_0_0_1_n_n : DotDims S4096x2048 S2048x2048 S4096x2048 where
  lhsContracting := [1]
  rhsContracting := [0]
  lhsNonContracting := [0]
  rhsNonContracting := [1]
  lhsBatch := []
  rhsBatch := []
  wf := dot_S4096x2048_S2048x2048_S4096x2048_1_0_0_1_n_n_wf

class Facts : Prop extends Facts₀ where

variable [Facts]
-- ==== Proof.Membrane.lean ====
/-
  One step of a leaky integrate-and-fire layer behind a dense map, with a soft reset, and the
  presynaptic trace kept beside it — as functions of the five argument arrays, index by index,
  over the extended reals.

  For a batch row `r` and an output feature `c`:
    potential (r, c) = leak · u (r, c) + Σ_k x (r, k) · W (k, c) + b c
    fired (r, c)     = the bit of  thresh ≤ potential (r, c)
    spikes (r, c)    = that bit as the number 0 or 1
    membrane (r, c)  = potential (r, c) − spikes (r, c) · thresh
    trace (r, c)     = a (r, c) · leak + x (r, c)
  with `leak` the float word of one half and `thresh` the float word of one. The sums are sums
  in the commutative monoid of the extended reals, so no order of summation is part of the
  definition, and nothing here needs the inputs to be finite: both programs are shown to compute
  exactly these terms, association included.
-/
import Idealize.ShloMosaic.PureOps.Ideal
import Idealize.ShloMosaic.PureOps.Ideal.Laws
import Idealize.ShloMosaic.Lib.ValueIdx

noncomputable section

namespace Cert.LifStep

open Idealize.ShloMosaic Idealize.ShloMosaic.ValueIdx

/-- Batch rows by features: the shape of `x`, `u`, the trace, and of all three results. -/
abbrev Act : Shape := ⟨2, ![4096, 2048]⟩
/-- Input features by output features. -/
abbrev Weights : Shape := ⟨2, ![2048, 2048]⟩
/-- One entry per output feature. -/
abbrev Bias : Shape := ⟨1, ![2048]⟩

/-- The leak of the membrane and of the trace: one half, as the float word both programs print. -/
abbrev leak : EReal := Ideal.ofBits .f32 0x3F000000#32
/-- The firing threshold, and the amount one spike takes off the potential: one, as its float word. -/
abbrev thresh : EReal := Ideal.ofBits .f32 0x3F800000#32

/-- The dense map's output at row `i 0`, feature `i 1`: the row of `x` against the column of `W`. -/
def drive (x : FVec Ideal Act .f32) (W : FVec Ideal Weights .f32) (i : Act.Idx) : EReal :=
  ∑ k : Fin 2048, x (ix2 (i 0) k) * W (ix2 k (i 1))

/-- The membrane potential before the reset: the leaked old potential, plus the drive, plus the bias. -/
def potential (x u : FVec Ideal Act .f32) (W : FVec Ideal Weights .f32) (b : FVec Ideal Bias .f32) :
    FVec Ideal Act .f32 :=
  fun i => leak * u i + drive x W i + b (ix1 (i 1))

/-- Whether the neuron fires: the potential has reached the threshold. -/
def fired (x u : FVec Ideal Act .f32) (W : FVec Ideal Weights .f32) (b : FVec Ideal Bias .f32) : IVec Act 1 :=
  fun i => Ideal.cmp .oge (potential x u W b i) thresh

/-- The spike train of this step: the firing bit as the number 0 or 1. -/
def spikes (x u : FVec Ideal Act .f32) (W : FVec Ideal Weights .f32) (b : FVec Ideal Bias .f32) :
    FVec Ideal Act .f32 :=
  fun i => (((fired x u W b i).toNat : ℝ) : EReal)

/-- The potential carried to the next step: a spike takes the threshold off it (soft reset). -/
def membrane (x u : FVec Ideal Act .f32) (W : FVec Ideal Weights .f32) (b : FVec Ideal Bias .f32) :
    FVec Ideal Act .f32 :=
  fun i => potential x u W b i - spikes x u W b i * thresh

/-- The presynaptic trace carried to the next step: the leaked old trace plus the input. -/
def trace (x a : FVec Ideal Act .f32) : FVec Ideal Act .f32 :=
  fun i => a i * leak + x i

/-- A single bit widened by zeros to 32 bits is a non-negative word, so reading it as a signed
    integer gives the same 0 or 1 as reading the bit as a natural number. -/
theorem toInt_setWidth_bit (b : BitVec 1) : (b.setWidth 32).toInt = (b.toNat : ℤ) := by
  by_cases h : b = 1#1
  · subst h; decide
  · have h0 : b = 0#1 := eq_zero_of_ne_one h
    subst h0; decide

/-- The same as extended reals: the signed reading of the widened bit is the unsigned reading of the bit. -/
theorem signed_widened_bit (b : BitVec 1) :
    ((((b.setWidth 32).toInt : ℝ)) : EReal) = (((b.toNat : ℝ)) : EReal) := by
  rw [toInt_setWidth_bit, Int.cast_natCast]

end Cert.LifStep

end
-- ==== Proof.ReferenceStep.lean ====
/-
  The reference program computes the step of `Membrane.lean`.

  Its twenty host operations are read one at a time, at an index: the product `x @ W` is the sum
  over the contracted axis of row entry times column entry, the bias reaches entry (r, c) through
  two broadcasts that both keep the column, the comparison's bit is read as a natural number, and
  every scalar constant is the float word it prints. Put together in the program's own association
  these are `potential`, `spikes`, `membrane` and `trace`.
-/
import proofs.«150963_j30940944400974_1_alg».proof.Proof.Gen.ReferenceIdeal.Read
import proofs.«150963_j30940944400974_1_alg».proof.Proof.Membrane

noncomputable section

namespace Cert.LifStep.Reference

open Idealize.ShloMosaic Idealize.ShloMosaic.ValueIdx
open Cert.ReferenceIdeal Cert.ReferenceIdeal.Read

/-- The left factor of the product's `k`-th term at entry `i` sits in `i`'s row, column `k`. -/
theorem row_entry (i : Act.Idx) (k : Fin 2048) : lidx_main_v2 i k = ix2 (i 0) k :=
  funext fun a => Fin.ext (by match a with | ⟨0, _⟩ => rfl | ⟨1, _⟩ => rfl)

/-- The right factor sits in row `k`, `i`'s column. -/
theorem col_entry (i : Act.Idx) (k : Fin 2048) : ridx_main_v2 i k = ix2 k (i 1) :=
  funext fun a => Fin.ext (by match a with | ⟨0, _⟩ => rfl | ⟨1, _⟩ => rfl)

/-- Through both broadcasts the bias read at entry `i` is the bias of `i`'s column. -/
theorem bias_entry (i : Act.Idx) : idx_main_v4 (idx_main_v5 i) = ix1 (i 1) :=
  funext fun a => Fin.ext (by match a with | ⟨0, _⟩ => rfl)

/-- `0.5 * u + x @ W + b`, as the program associates it, is the potential. -/
theorem potential_eq (x u : FVec Ideal Act .f32) (W : FVec Ideal Weights .f32) (b : FVec Ideal Bias .f32) :
    val_main_v6 (F := Ideal) x u W b = potential x u W b := by
  funext i
  rw [val_main_v6_apply, val_main_v3_apply, val_main_v1_apply, val_main_v0_apply, val_main_cst_apply,
    val_main_v2_apply, val_main_v5_apply, val_main_v4_apply]
  simp only [row_entry, col_entry, bias_entry]
  rfl

/-- The comparison with the threshold, converted to a float, is the spike train. -/
theorem spikes_eq (x u : FVec Ideal Act .f32) (W : FVec Ideal Weights .f32) (b : FVec Ideal Bias .f32) :
    val_main_v9 (F := Ideal) x u W b = spikes x u W b := by
  funext i
  rw [val_main_v9_apply, val_main_v8_apply, val_main_v7_apply, val_main_cst_0_apply, potential_eq]
  rfl

/-- The potential less the spikes times the threshold is the membrane carried on. -/
theorem membrane_eq (x u : FVec Ideal Act .f32) (W : FVec Ideal Weights .f32) (b : FVec Ideal Bias .f32) :
    val_main_v12 (F := Ideal) x u W b = membrane x u W b := by
  funext i
  rw [val_main_v12_apply, val_main_v11_apply, val_main_v10_apply, val_main_cst_1_apply, spikes_eq, potential_eq]
  rfl

/-- The old trace times the leak, plus the input, is the trace carried on. -/
theorem trace_eq (x a : FVec Ideal Act .f32) : val_main_v15 (F := Ideal) x a = trace x a := by
  funext i
  rw [val_main_v15_apply, val_main_v14_apply, val_main_v13_apply, val_main_cst_2_apply]
  rfl

end Cert.LifStep.Reference

end
-- ==== Proof.KernelBlocks.lean ====
/-
  Where the kernel's blocks sit in the arrays, and what each input block holds.

  The grid has 32 points. At point `t` the three batch inputs and the three results are staged
  through blocks of 128 rows by all 2048 columns at block index (t, 0): block entry `y` is array
  entry (128·t + y 0, y 1), called `place t y` here. The weights and the bias row are staged whole,
  at block index (0, 0), so their block entry `y` is array entry `y`.
  Two of the staged arrays are prepared on the host before the region: the weights narrowed to
  bf16 — the same extended reals — and the bias reshaped from 2048 entries to one row of 2048.
  So at every point the inputs' blocks are restrictions of the argument arrays themselves.
-/
import proofs.«150963_j30940944400974_1_alg».proof.Proof.Gen.KernelIdeal.Value
import proofs.«150963_j30940944400974_1_alg».proof.Proof.Membrane
import Idealize.ShloMosaic.Lib.StableHlo.Run
import Idealize.ShloMosaic.Lib.Pipeline.Value
import Idealize.ShloMosaic.Lib.ValueIdx

noncomputable section

namespace Cert.LifStep.Kernel

open Idealize.ShloMosaic Idealize.ShloMosaic.TcCoe Idealize.ShloMosaic.ValueIdx Idealize.SL.Sem
open Cert.KernelIdeal Cert.KernelIdeal.Gen

variable (m : (ℓ : Loc nD τ sig) → Buf (Elt Ideal) ℓ)

/-! ## The five arguments, by what they are -/

/-- The input of this step. -/
abbrev xArr (c : Dev nD) : FVec Ideal Act .f32 := m ((c : Thread nD τ).loc main_arg0)
/-- The membrane potential carried in. -/
abbrev uArr (c : Dev nD) : FVec Ideal Act .f32 := m ((c : Thread nD τ).loc main_arg1)
/-- The presynaptic trace carried in. -/
abbrev aArr (c : Dev nD) : FVec Ideal Act .f32 := m ((c : Thread nD τ).loc main_arg2)
/-- The dense map's weights. -/
abbrev wArr (c : Dev nD) : FVec Ideal Weights .f32 := m ((c : Thread nD τ).loc main_arg3)
/-- The dense map's bias. -/
abbrev bArr (c : Dev nD) : FVec Ideal Bias .f32 := m ((c : Thread nD τ).loc main_arg4)

/-! ## Block indices, decided over the grid -/

theorem zero_offsets : (![0, 0] : Fin 2 → Nat) = fun _ => 0 := funext fun a => by fin_cases a <;> rfl

/-- At point `t` the six batch windows are at block (t, 0) and the two resident ones at block (0, 0). -/
theorem block_indices : ∀ t : Fin cfg0.N,
      win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0
    ∧ win0_6.index t (0 : Fin 2) = t.val ∧ win0_6.index t (1 : Fin 2) = 0
    ∧ win0_7.index t (0 : Fin 2) = t.val ∧ win0_7.index t (1 : Fin 2) = 0 :=
  (by decide +kernel : ∀ t : Fin grid0.N, _)

/-- The array entry that entry `y` of point `t`'s 128-row block is. -/
abbrev place (t : Fin cfg0.N) (y : S128x2048.Idx) : Act.Idx :=
  ix2 (⟨t.val * 128 + (y 0).val, by
    have ht := t.isLt; have hN : cfg0.N = 32 := N_0; have hy := idx2_lt0 y; omega⟩ : Fin 4096) (y 1)

section
variable (t : Fin cfg0.N)

theorem emb_x (y : S128x2048.Idx) : ((cfg0.win 0).blk t).view.emb y = place t y := by
  obtain ⟨e0, e1, -⟩ := block_indices t
  funext a; apply Fin.ext
  match a with
  | ⟨0, _⟩ => show win0_0.index t (0 : Fin 2) * 128 + 1 * (y 0).val = t.val * 128 + (y 0).val; omega
  | ⟨1, _⟩ => show win0_0.index t (1 : Fin 2) * 2048 + 1 * (y 1).val = (y 1).val; omega

theorem emb_u (y : S128x2048.Idx) : ((cfg0.win 1).blk t).view.emb y = place t y := by
  obtain ⟨-, -, e0, e1, -⟩ := block_indices t
  funext a; apply Fin.ext
  match a with
  | ⟨0, _⟩ => show win0_1.index t (0 : Fin 2) * 128 + 1 * (y 0).val = t.val * 128 + (y 0).val; omega
  | ⟨1, _⟩ => show win0_1.index t (1 : Fin 2) * 2048 + 1 * (y 1).val = (y 1).val; omega

theorem emb_a (y : S128x2048.Idx) : ((cfg0.win 2).blk t).view.emb y = place t y := by
  obtain ⟨-, -, -, -, e0, e1, -⟩ := block_indices t
  funext a; apply Fin.ext
  match a with
  | ⟨0, _⟩ => show win0_2.index t (0 : Fin 2) * 128 + 1 * (y 0).val = t.val * 128 + (y 0).val; omega
  | ⟨1, _⟩ => show win0_2.index t (1 : Fin 2) * 2048 + 1 * (y 1).val = (y 1).val; omega

theorem emb_w (y : S2048x2048.Idx) : ((cfg0.win 3).blk t).view.emb y = y := by
  obtain ⟨-, -, -, -, -, -, e0, e1, -⟩ := block_indices t
  funext a; apply Fin.ext
  match a with
  | ⟨0, _⟩ => show win0_3.index t (0 : Fin 2) * 2048 + 1 * (y 0).val = (y 0).val; omega
  | ⟨1, _⟩ => show win0_3.index t (1 : Fin 2) * 2048 + 1 * (y 1).val = (y 1).val; omega

theorem emb_b (y : S1x2048.Idx) : ((cfg0.win 4).blk t).view.emb y = y := by
  obtain ⟨-, -, -, -, -, -, -, -, e0, e1, -⟩ := block_indices t
  funext a; apply Fin.ext
  match a with
  | ⟨0, _⟩ => show win0_4.index t (0 : Fin 2) * 1 + 1 * (y 0).val = (y 0).val; omega
  | ⟨1, _⟩ => show win0_4.index t (1 : Fin 2) * 2048 + 1 * (y 1).val = (y 1).val; omega

theorem emb_membrane (y : S128x2048.Idx) : ((cfg0.win 5).blk t).view.emb y = place t y := by
  obtain ⟨-, -, -, -, -, -, -, -, -, -, e0, e1, -⟩ := block_indices t
  funext a; apply Fin.ext
  match a with
  | ⟨0, _⟩ => show win0_5.index t (0 : Fin 2) * 128 + 1 * (y 0).val = t.val * 128 + (y 0).val; omega
  | ⟨1, _⟩ => show win0_5.index t (1 : Fin 2) * 2048 + 1 * (y 1).val = (y 1).val; omega

theorem emb_trace (y : S128x2048.Idx) : ((cfg0.win 6).blk t).view.emb y = place t y := by
  obtain ⟨-, -, -, -, -, -, -, -, -, -, -, -, e0, e1, -⟩ := block_indices t
  funext a; apply Fin.ext
  match a with
  | ⟨0, _⟩ => show win0_6.index t (0 : Fin 2) * 128 + 1 * (y 0).val = t.val * 128 + (y 0).val; omega
  | ⟨1, _⟩ => show win0_6.index t (1 : Fin 2) * 2048 + 1 * (y 1).val = (y 1).val; omega

theorem emb_spikes (y : S128x2048.Idx) : ((cfg0.win 7).blk t).view.emb y = place t y := by
  obtain ⟨-, -, -, -, -, -, -, -, -, -, -, -, -, -, e0, e1⟩ := block_indices t
  funext a; apply Fin.ext
  match a with
  | ⟨0, _⟩ => show win0_7.index t (0 : Fin 2) * 128 + 1 * (y 0).val = t.val * 128 + (y 0).val; omega
  | ⟨1, _⟩ => show win0_7.index t (1 : Fin 2) * 2048 + 1 * (y 1).val = (y 1).val; omega

end

/-! ## The two arrays the host prepares before the region -/

/-- The staged weights are the weight argument narrowed to bf16. -/
theorem weights_staged (c : Dev nD) :
    (V m c main_v0 : S2048x2048.Idx → Ideal .bf16) = truncf .bf16 (wArr m c) bitsLt_bf16_f32 := by
  dsimp only [Gen.V, Gen.hostOps0]; after_results

/-- The staged bias is the bias argument reshaped to one row. -/
theorem bias_staged (c : Dev nD) :
    (V m c main_v1 : S1x2048.Idx → Ideal .f32) = shapeCast S1x2048 (bArr m c) shapeCasts_S2048_S1x2048 := by
  dsimp only [Gen.V, Gen.hostOps0]; after_results; rfl

/-- A vector of 2048 entries reshaped to one row of 2048: the row's entry in column `q` is entry `q`. -/
theorem row_of_vector (b : FVec Ideal Bias .f32) (y : S1x2048.Idx) :
    shapeCast S1x2048 b shapeCasts_S2048_S1x2048 y = b (ix1 (y 1)) :=
  shapeCast_apply b shapeCasts_S2048_S1x2048 y (ix1 (y 1)) (by
    have h1 := Shape.rowMajor_val_one (d := ![2048]) (ix1 (y 1))
    have h2 := Shape.rowMajor_val_two (d := ![1, 2048]) y
    have h0 : (y 0).val < 1 := idx2_lt0 y
    refine h1.trans (Eq.trans ?_ h2.symm)
    show (y 1).val = (y 0).val * 2048 + (y 1).val
    omega)

/-! ## What the input blocks hold -/

section
variable (c : Dev nD) (t : Fin cfg0.N)

theorem x_block (y : S128x2048.Idx) : iblk m c 0 t y = xArr m c (place t y) := by
  show V m c main_arg0 (((cfg0.win 0).blk t).view.emb y) = _
  rw [emb_x, V_main_arg0]

theorem u_block (y : S128x2048.Idx) : iblk m c 1 t y = uArr m c (place t y) := by
  show V m c main_arg1 (((cfg0.win 1).blk t).view.emb y) = _
  rw [emb_u, V_main_arg1]

theorem a_block (y : S128x2048.Idx) : iblk m c 2 t y = aArr m c (place t y) := by
  show V m c main_arg2 (((cfg0.win 2).blk t).view.emb y) = _
  rw [emb_a, V_main_arg2]

theorem w_block (y : S2048x2048.Idx) : iblk m c 3 t y = wArr m c y := by
  show V m c main_v0 (((cfg0.win 3).blk t).view.emb y) = _
  rw [emb_w, weights_staged]
  rfl

theorem b_block (y : S1x2048.Idx) : iblk m c 4 t y = bArr m c (ix1 (y 1)) := by
  show V m c main_v1 (((cfg0.win 4).blk t).view.emb y) = _
  rw [emb_b, bias_staged, row_of_vector]

end

end Cert.LifStep.Kernel

end
-- ==== Proof.BodyValues.lean ====
/-
  What the kernel body computes from one grid point's blocks, entry by entry.

  The body sees a block of 128 batch rows of `x`, `u` and the trace, all of `W` (already narrowed
  to bf16, which changes no extended real) and the bias as a single row. At block entry `j` it forms
    leak · u_blk j + Σ_k x_blk (j 0, k) · W (k, j 1) + bias_row (0, j 1),
  the matrix unit's product into a zero accumulator being that sum over the contracted axis;
  compares it with the threshold; widens the bit by zeros to 32 bits and reads it as a signed
  integer — the same 0 or 1 as the bit itself; and subtracts that times the threshold.
  Each payload is stated for arbitrary blocks together with the array entry `i` they are blocks of
  (hypotheses `hx`, `hu`, `hW`, `hb`, `ha`), so that it lands directly on `Membrane.lean`'s terms.
-/
import proofs.«150963_j30940944400974_1_alg».proof.Proof.Gen.KernelIdeal.Skeleton
import proofs.«150963_j30940944400974_1_alg».proof.Proof.Membrane
import Idealize.ShloMosaic.Lib.Pipeline.Value

noncomputable section

namespace Cert.LifStep.Body

open Idealize.ShloMosaic Idealize.ShloMosaic.ValueIdx
open Cert.KernelIdeal Cert.KernelIdeal.Gen

/-! ## The product's operand entries -/

/-- The left operand's row is the output entry's row. -/
theorem lhs_row (j : S128x2048.Idx) (q : dot_S128x2048_S2048x2048_S128x2048_1_0_0_1_n_n.contr.Idx) :
    (dot_S128x2048_S2048x2048_S128x2048_1_0_0_1_n_n.lhsIdx j q 0).val = (j 0).val := by
  unfold DotDims.lhsIdx
  rw [dif_neg (show ¬(0 : Fin S128x2048.rank) ∈ dot_S128x2048_S2048x2048_S128x2048_1_0_0_1_n_n.lhsBatch by decide), dif_pos (show (0 : Fin S128x2048.rank) ∈ dot_S128x2048_S2048x2048_S128x2048_1_0_0_1_n_n.lhsNonContracting by decide)]
  rfl
/-- The left operand's column is the contraction index. -/
theorem lhs_col (j : S128x2048.Idx) (q : dot_S128x2048_S2048x2048_S128x2048_1_0_0_1_n_n.contr.Idx) :
    (dot_S128x2048_S2048x2048_S128x2048_1_0_0_1_n_n.lhsIdx j q 1).val = (q ⟨0, by decide⟩).val :=
  dot_S128x2048_S2048x2048_S128x2048_1_0_0_1_n_n.lhsIdx_val_of_single rfl j q
/-- The right operand's row is the contraction index. -/
theorem rhs_row (j : S128x2048.Idx) (q : dot_S128x2048_S2048x2048_S128x2048_1_0_0_1_n_n.contr.Idx) :
    (dot_S128x2048_S2048x2048_S128x2048_1_0_0_1_n_n.rhsIdx j q 0).val = (q ⟨0, by decide⟩).val :=
  dot_S128x2048_S2048x2048_S128x2048_1_0_0_1_n_n.rhsIdx_val_of_single rfl j q
/-- The right operand's column is the output entry's column. -/
theorem rhs_col (j : S128x2048.Idx) (q : dot_S128x2048_S2048x2048_S128x2048_1_0_0_1_n_n.contr.Idx) :
    (dot_S128x2048_S2048x2048_S128x2048_1_0_0_1_n_n.rhsIdx j q 1).val = (j 1).val := by
  unfold DotDims.rhsIdx
  rw [dif_neg (show ¬(1 : Fin S2048x2048.rank) ∈ dot_S128x2048_S2048x2048_S128x2048_1_0_0_1_n_n.rhsBatch by decide), dif_pos (show (1 : Fin S2048x2048.rank) ∈ dot_S128x2048_S2048x2048_S128x2048_1_0_0_1_n_n.rhsNonContracting by decide)]
  rfl

/-- The matrix unit's product into a zero accumulator, at block entry `j`: row `j 0` of the left
    block against column `j 1` of the right operand, summed over the 2048 contracted positions. -/
theorem matmul_entry (xb : FVec Ideal S128x2048 .bf16) (w : FVec Ideal S2048x2048 .bf16) (j : S128x2048.Idx) :
    matmul dot_S128x2048_S2048x2048_S128x2048_1_0_0_1_n_n none xb w (constant (F := Ideal) S128x2048 .f32 0x00000000#32) j
      = ∑ k : Fin 2048, xb (ix2 (j 0) k) * w (ix2 k (j 1)) := by
  simp only [matmul]
  rw [Ideal.matmul_constant_zero_apply, ← Equiv.sum_comp (contrEquiv1 dot_S128x2048_S2048x2048_S128x2048_1_0_0_1_n_n 2048 rfl rfl).symm]
  refine Finset.sum_congr rfl fun k _ => ?_
  have hk := contrEquiv1_symm_val dot_S128x2048_S2048x2048_S128x2048_1_0_0_1_n_n 2048 rfl rfl k
  have el : dot_S128x2048_S2048x2048_S128x2048_1_0_0_1_n_n.lhsIdx j ((contrEquiv1 dot_S128x2048_S2048x2048_S128x2048_1_0_0_1_n_n 2048 rfl rfl).symm k) = ix2 (j 0) k := funext fun a => Fin.ext (by
    match a with
    | ⟨0, _⟩ => exact lhs_row _ _
    | ⟨1, _⟩ => exact (lhs_col _ _).trans hk)
  have er : dot_S128x2048_S2048x2048_S128x2048_1_0_0_1_n_n.rhsIdx j ((contrEquiv1 dot_S128x2048_S2048x2048_S128x2048_1_0_0_1_n_n 2048 rfl rfl).symm k) = ix2 k (j 1) := funext fun a => Fin.ext (by
    match a with
    | ⟨0, _⟩ => exact (rhs_row _ _).trans hk
    | ⟨1, _⟩ => exact rhs_col _ _)
  rw [el, er]
  rfl

/-- The bias row stretched over the block's 128 rows, at entry `j`: the row's entry in `j`'s column. -/
theorem bias_row_entry (bb : FVec Ideal S1x2048 .f32) (j : S128x2048.Idx) :
    broadcastTo S128x2048 bb broadcasts_S1x2048_S128x2048 j = bb (ix2 (0 : Fin 1) (j 1)) :=
  broadcastTo_apply bb broadcasts_S1x2048_S128x2048 j (ix2 (0 : Fin 1) (j 1)) (fun a => match a with
    | ⟨0, _⟩ => by show 0 = if (1 : Nat) = 1 then 0 else (j 0).val; rw [if_pos rfl]
    | ⟨1, _⟩ => by show (j 1).val = if (2048 : Nat) = 1 then 0 else (j 1).val; rw [if_neg (by decide)])

/-! ## The four payloads -/

section
variable (x0 x1 : Vec Ideal S128x2048 .f32) (x3 : Vec Ideal S2048x2048 .bf16) (x5 : Vec Ideal S1x2048 .f32)
  (x u : FVec Ideal Act .f32) (W : FVec Ideal Weights .f32) (b : FVec Ideal Bias .f32)
  (j : S128x2048.Idx) (i : Act.Idx)

/-- The value the body compares with the threshold is the potential at the array entry the block entry is. -/
theorem potential_entry
    (hx : ∀ k : Fin 2048, x0 (ix2 (j 0) k) = x (ix2 (i 0) k)) (hu : x1 j = u i)
    (hW : ∀ k : Fin 2048, x3 (ix2 k (j 1)) = W (ix2 k (i 1))) (hb : x5 (ix2 (0 : Fin 1) (j 1)) = b (ix1 (i 1))) :
    k0_pay1 x0 x1 x3 x5 j = potential x u W b i := by
  unfold k0_pay1
  rw [addf_apply, addf_apply, mulf_apply, broadcast_apply, shapeCast_self, shapeCast_self, matmul_entry,
    bias_row_entry, hu, hb]
  unfold potential drive
  congr 2
  exact Finset.sum_congr rfl fun k _ => by rw [truncf_apply, hx k, hW k]

/-- The comparison's bit, widened by zeros and read as a signed integer, is the spike: the widened
    word is 0 or 1, so its signed and the bit's unsigned reading agree. -/
theorem spikes_entry
    (hx : ∀ k : Fin 2048, x0 (ix2 (j 0) k) = x (ix2 (i 0) k)) (hu : x1 j = u i)
    (hW : ∀ k : Fin 2048, x3 (ix2 k (j 1)) = W (ix2 k (i 1))) (hb : x5 (ix2 (0 : Fin 1) (j 1)) = b (ix1 (i 1))) :
    k0_pay2 x0 x1 x3 x5 j = spikes x u W b i := by
  unfold k0_pay2
  rw [sitofp_apply, extui_apply, cmpf_apply, broadcast_apply, potential_entry x0 x1 x3 x5 x u W b j i hx hu hW hb]
  exact signed_widened_bit _

/-- The potential less the spike times the threshold is the membrane carried on. -/
theorem membrane_entry
    (hx : ∀ k : Fin 2048, x0 (ix2 (j 0) k) = x (ix2 (i 0) k)) (hu : x1 j = u i)
    (hW : ∀ k : Fin 2048, x3 (ix2 k (j 1)) = W (ix2 k (i 1))) (hb : x5 (ix2 (0 : Fin 1) (j 1)) = b (ix1 (i 1))) :
    k0_pay3 x0 x1 x3 x5 j = membrane x u W b i := by
  unfold k0_pay3
  rw [subf_apply, mulf_apply, broadcast_apply, potential_entry x0 x1 x3 x5 x u W b j i hx hu hW hb,
    spikes_entry x0 x1 x3 x5 x u W b j i hx hu hW hb]
  rfl

end

/-- The old trace's block entry times the leak, plus the input's, is the trace carried on. -/
theorem trace_entry (x0 x2 : Vec Ideal S128x2048 .f32) (x a : FVec Ideal Act .f32) (j : S128x2048.Idx) (i : Act.Idx)
    (hx : x0 j = x i) (ha : x2 j = a i) : k0_pay4 x0 x2 j = trace x a i := by
  unfold k0_pay4
  rw [addf_apply, mulf_apply, broadcast_apply, hx, ha]
  rfl

end Cert.LifStep.Body

end
-- ==== Proof.KernelArrays.lean ====
/-
  The kernel's three result arrays after the run.

  At every grid point each result window's block is stored once, whole, and written back; what is
  written is the body's payload of that point's input blocks. By `KernelBlocks.lean` those blocks
  are restrictions of the argument arrays, and by `BodyValues.lean` the payloads at a block entry
  are the step's terms at the array entry the block entry is. So point `t` writes block `t` of
  `membrane`, of `trace` and of `spikes`. The 32 blocks of 128 rows cover all 4096 rows — row `r`
  lies in the block of point `r / 128` — hence each array ends holding the whole function.
-/
import proofs.«150963_j30940944400974_1_alg».proof.Proof.KernelBlocks
import proofs.«150963_j30940944400974_1_alg».proof.Proof.BodyValues

noncomputable section

namespace Cert.LifStep.Kernel

open Idealize.ShloMosaic Idealize.ShloMosaic.TcCoe Idealize.ShloMosaic.ValueIdx Idealize.SL.Sem
open Cert.KernelIdeal Cert.KernelIdeal.Gen
open Idealize.ShloMosaic.Pipeline (Dat)

variable (m : (ℓ : Loc nD τ sig) → Buf (Elt Ideal) ℓ) (ρ : Dev nD → PrngReg)

/-! ## What each point writes back -/

section
variable (c : Dev nD) (t : Fin cfg0.N)

/-- Point `t` writes back block `t` of the membrane carried on. -/
theorem flushed_membrane :
    (dats m 0 c).flushed 5 t
      = ((cfg0.win 5).blk t).view.read (Elt Ideal) (membrane (xArr m c) (uArr m c) (wArr m c) (bArr m c)) := by
  rw [Value.flushed5]
  unfold out0_5
  rw [View.canon_unit_zero zero_offsets]
  simp only [View.ld_unit_zero (S := S128x2048) zero_offsets, View.ld_unit_zero (S := S2048x2048) zero_offsets,
    View.ld_unit_zero (S := S1x2048) zero_offsets]
  funext y
  show k0_pay3 (iblk m c 0 t) (iblk m c 1 t) (iblk m c 3 t) (iblk m c 4 t) y
    = membrane (xArr m c) (uArr m c) (wArr m c) (bArr m c) (((cfg0.win 5).blk t).view.emb y)
  rw [emb_membrane]
  exact Body.membrane_entry (iblk m c 0 t) (iblk m c 1 t) (iblk m c 3 t) (iblk m c 4 t)
    (xArr m c) (uArr m c) (wArr m c) (bArr m c) y (place t y)
    (fun k => x_block m c t (ix2 (y 0) k)) (u_block m c t y)
    (fun k => w_block m c t (ix2 k (y 1))) (b_block m c t (ix2 (0 : Fin 1) (y 1)))

/-- Point `t` writes back block `t` of the trace carried on. -/
theorem flushed_trace :
    (dats m 0 c).flushed 6 t = ((cfg0.win 6).blk t).view.read (Elt Ideal) (trace (xArr m c) (aArr m c)) := by
  rw [Value.flushed6]
  unfold out0_6
  rw [View.canon_unit_zero zero_offsets]
  simp only [View.ld_unit_zero (S := S128x2048) zero_offsets]
  funext y
  show k0_pay4 (iblk m c 0 t) (iblk m c 2 t) y = trace (xArr m c) (aArr m c) (((cfg0.win 6).blk t).view.emb y)
  rw [emb_trace]
  exact Body.trace_entry (iblk m c 0 t) (iblk m c 2 t) (xArr m c) (aArr m c) y (place t y)
    (x_block m c t y) (a_block m c t y)

/-- Point `t` writes back block `t` of the spike train. -/
theorem flushed_spikes :
    (dats m 0 c).flushed 7 t
      = ((cfg0.win 7).blk t).view.read (Elt Ideal) (spikes (xArr m c) (uArr m c) (wArr m c) (bArr m c)) := by
  rw [Value.flushed7]
  unfold out0_7
  rw [View.canon_unit_zero zero_offsets]
  simp only [View.ld_unit_zero (S := S128x2048) zero_offsets, View.ld_unit_zero (S := S2048x2048) zero_offsets,
    View.ld_unit_zero (S := S1x2048) zero_offsets]
  funext y
  show k0_pay2 (iblk m c 0 t) (iblk m c 1 t) (iblk m c 3 t) (iblk m c 4 t) y
    = spikes (xArr m c) (uArr m c) (wArr m c) (bArr m c) (((cfg0.win 7).blk t).view.emb y)
  rw [emb_spikes]
  exact Body.spikes_entry (iblk m c 0 t) (iblk m c 1 t) (iblk m c 3 t) (iblk m c 4 t)
    (xArr m c) (uArr m c) (wArr m c) (bArr m c) y (place t y)
    (fun k => x_block m c t (ix2 (y 0) k)) (u_block m c t y)
    (fun k => w_block m c t (ix2 k (y 1))) (b_block m c t (ix2 (0 : Fin 1) (y 1)))

end

/-! ## The blocks cover the arrays -/

/-- An array entry is in point `t`'s block of the membrane window iff each coordinate is in the block's range. -/
theorem mem_block_membrane (t : Fin cfg0.N) (i : Act.Idx) :
    i ∈ ((cfg0.win 5).blk t).view.set ↔ ∀ a : Fin 2, win0_5.index t a * S128x2048.size a ≤ (i a).val ∧ (i a).val < win0_5.index t a * S128x2048.size a + S128x2048.size a := by
  show i ∈ ((View.whole main_v2_0).slice (win0_5.rect t)).set ↔ _
  rw [View.set_slice_whole, Rect.mem_set_unit]
  exact Iff.rfl

theorem mem_block_trace (t : Fin cfg0.N) (i : Act.Idx) :
    i ∈ ((cfg0.win 6).blk t).view.set ↔ ∀ a : Fin 2, win0_6.index t a * S128x2048.size a ≤ (i a).val ∧ (i a).val < win0_6.index t a * S128x2048.size a + S128x2048.size a := by
  show i ∈ ((View.whole main_v2_1).slice (win0_6.rect t)).set ↔ _
  rw [View.set_slice_whole, Rect.mem_set_unit]
  exact Iff.rfl

theorem mem_block_spikes (t : Fin cfg0.N) (i : Act.Idx) :
    i ∈ ((cfg0.win 7).blk t).view.set ↔ ∀ a : Fin 2, win0_7.index t a * S128x2048.size a ≤ (i a).val ∧ (i a).val < win0_7.index t a * S128x2048.size a + S128x2048.size a := by
  show i ∈ ((View.whole main_v2_2).slice (win0_7.rect t)).set ↔ _
  rw [View.set_slice_whole, Rect.mem_set_unit]
  exact Iff.rfl

/-- The point whose block holds row `i 0`: that row divided by the 128 rows of a block. -/
def pointOf (i : Act.Idx) : Fin cfg0.N :=
  ⟨(i 0).val / 128, by have h := idx2_lt0 i; have hN : cfg0.N = 32 := N_0; omega⟩

theorem pointOf_val (i : Act.Idx) : (pointOf i).val = (i 0).val / 128 := rfl

theorem cover_membrane (i : Act.Idx) :
    ∃ t : Fin cfg0.N, (cfg0.win 5).flush t = true ∧ i ∈ ((cfg0.win 5).blk t).view.set := by
  have h0 := idx2_lt0 i
  have h1 := idx2_lt1 i
  have ht := pointOf_val i
  obtain ⟨-, -, -, -, -, -, -, -, -, -, e0, e1, -⟩ := block_indices (pointOf i)
  refine ⟨pointOf i, flush0_5 _, ?_⟩
  rw [mem_block_membrane]
  intro a
  match a with
  | ⟨0, _⟩ => show win0_5.index (pointOf i) (0 : Fin 2) * 128 ≤ (i 0).val ∧ (i 0).val < win0_5.index (pointOf i) (0 : Fin 2) * 128 + 128; omega
  | ⟨1, _⟩ => show win0_5.index (pointOf i) (1 : Fin 2) * 2048 ≤ (i 1).val ∧ (i 1).val < win0_5.index (pointOf i) (1 : Fin 2) * 2048 + 2048; omega

theorem cover_trace (i : Act.Idx) :
    ∃ t : Fin cfg0.N, (cfg0.win 6).flush t = true ∧ i ∈ ((cfg0.win 6).blk t).view.set := by
  have h0 := idx2_lt0 i
  have h1 := idx2_lt1 i
  have ht := pointOf_val i
  obtain ⟨-, -, -, -, -, -, -, -, -, -, -, -, e0, e1, -⟩ := block_indices (pointOf i)
  refine ⟨pointOf i, flush0_6 _, ?_⟩
  rw [mem_block_trace]
  intro a
  match a with
  | ⟨0, _⟩ => show win0_6.index (pointOf i) (0 : Fin 2) * 128 ≤ (i 0).val ∧ (i 0).val < win0_6.index (pointOf i) (0 : Fin 2) * 128 + 128; omega
  | ⟨1, _⟩ => show win0_6.index (pointOf i) (1 : Fin 2) * 2048 ≤ (i 1).val ∧ (i 1).val < win0_6.index (pointOf i) (1 : Fin 2) * 2048 + 2048; omega

theorem cover_spikes (i : Act.Idx) :
    ∃ t : Fin cfg0.N, (cfg0.win 7).flush t = true ∧ i ∈ ((cfg0.win 7).blk t).view.set := by
  have h0 := idx2_lt0 i
  have h1 := idx2_lt1 i
  have ht := pointOf_val i
  obtain ⟨-, -, -, -, -, -, -, -, -, -, -, -, -, -, e0, e1⟩ := block_indices (pointOf i)
  refine ⟨pointOf i, flush0_7 _, ?_⟩
  rw [mem_block_spikes]
  intro a
  match a with
  | ⟨0, _⟩ => show win0_7.index (pointOf i) (0 : Fin 2) * 128 ≤ (i 0).val ∧ (i 0).val < win0_7.index (pointOf i) (0 : Fin 2) * 128 + 128; omega
  | ⟨1, _⟩ => show win0_7.index (pointOf i) (1 : Fin 2) * 2048 ≤ (i 1).val ∧ (i 1).val < win0_7.index (pointOf i) (1 : Fin 2) * 2048 + 2048; omega

/-! ## The arrays after the run -/

theorem membrane_array (c : Dev nD) :
    (dats m 0 c).arrAt 5 cfg0.N = membrane (xArr m c) (uArr m c) (wArr m c) (bArr m c) :=
  (dats m 0 c).arrAt_eq_of_cover 5 _ (fun t _ => flushed_membrane m c t) cover_membrane

theorem trace_array (c : Dev nD) : (dats m 0 c).arrAt 6 cfg0.N = trace (xArr m c) (aArr m c) :=
  (dats m 0 c).arrAt_eq_of_cover 6 _ (fun t _ => flushed_trace m c t) cover_trace

theorem spikes_array (c : Dev nD) :
    (dats m 0 c).arrAt 7 cfg0.N = spikes (xArr m c) (uArr m c) (wArr m c) (bArr m c) :=
  (dats m 0 c).arrAt_eq_of_cover 7 _ (fun t _ => flushed_spikes m c t) cover_spikes

/-- Every weakly fair execution of the kernel program ends with the three results at the step's
    terms of the argument arrays, and the arguments as they were. -/
theorem run : θ_run defs (onTc (τ := τ) (main (F := Ideal))) ⟨m, fun _ => 0, ρ⟩ fun r => ∀ c : Dev nD,
      r.2.mem ((c : Thread nD τ).loc main_v2_0) = membrane (xArr m c) (uArr m c) (wArr m c) (bArr m c)
      ∧ r.2.mem ((c : Thread nD τ).loc main_v2_1) = trace (xArr m c) (aArr m c)
      ∧ r.2.mem ((c : Thread nD τ).loc main_v2_2) = spikes (xArr m c) (uArr m c) (wArr m c) (bArr m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨(h c).1.trans (membrane_array m c), (h c).2.1.trans (trace_array m c),
      (h c).2.2.1.trans (spikes_array m c), (h c).2.2.2⟩)
    (Value.run_blocks m ρ)

end Cert.LifStep.Kernel

end
-- ==== Proof.lean ====
/-
  A fused kernel for one step of a leaky integrate-and-fire layer behind a dense map, with the
  presynaptic trace kept beside it, against its plain array reference — equal over the extended reals.

  Both programs compute, for batch row `r` and feature `c`,
    potential = ½ · u (r, c) + Σ_k x (r, k) · W (k, c) + b c,
    spikes    = 1 where potential ≥ 1, else 0,
    membrane  = potential − spikes · 1,
    trace     = a (r, c) · ½ + x (r, c),
  with the same float words for ½ and 1 and the same association of the two additions
  (`Proof/Membrane.lean`). They differ in three ways, none of which changes an extended real:
  the kernel narrows `x` and `W` to bf16 before the product (a change of format is the identity);
  it forms the product on the matrix unit into a zero accumulator, 128 batch rows at a time, where
  the reference has one contraction over the whole arrays (both are the same sum over `k`); and it
  turns the comparison's bit into a number by widening it with zeros and reading it signed, where
  the reference reads the bit unsigned (a zero-extended bit is 0 or 1 either way).
  No step distributes, cancels or reorders across an infinity, so the precondition that the inputs
  be finite is never opened.

  The reference side is `Proof/ReferenceStep.lean`; the kernel's body at a block entry is
  `Proof/BodyValues.lean`, its blocks `Proof/KernelBlocks.lean`, and its result arrays after the
  run `Proof/KernelArrays.lean`. The idealization rewrote nothing, so that conjunct is trivial.
-/
import proofs.«150963_j30940944400974_1_alg».proof.Defs
import proofs.«150963_j30940944400974_1_alg».proof.Proof.Gen.Kernel
import proofs.«150963_j30940944400974_1_alg».proof.Proof.Gen.Kernel.Skeleton
import proofs.«150963_j30940944400974_1_alg».proof.Proof.Gen.Kernel.Launch
import proofs.«150963_j30940944400974_1_alg».proof.Proof.Gen.Kernel.Points
import proofs.«150963_j30940944400974_1_alg».proof.Proof.Gen.Kernel.Frame
import proofs.«150963_j30940944400974_1_alg».proof.Proof.Gen.KernelIdeal
import proofs.«150963_j30940944400974_1_alg».proof.Proof.Gen.KernelIdeal.Skeleton
import proofs.«150963_j30940944400974_1_alg».proof.Proof.Gen.KernelIdeal.Launch
import proofs.«150963_j30940944400974_1_alg».proof.Proof.Gen.KernelIdeal.Points
import proofs.«150963_j30940944400974_1_alg».proof.Proof.Gen.KernelIdeal.Frame
import proofs.«150963_j30940944400974_1_alg».proof.Proof.Gen.ReferenceIdeal
import proofs.«150963_j30940944400974_1_alg».proof.Proof.Gen.Pre_finite_inputs
import Idealize.ShloMosaic.Adequacy
import Idealize.ShloMosaic.Init
import proofs.«150963_j30940944400974_1_alg».proof.Proof.Gen.KernelIdeal.Value
import proofs.«150963_j30940944400974_1_alg».proof.Proof.Gen.ReferenceIdeal.Run
import proofs.«150963_j30940944400974_1_alg».proof.Proof.Gen.ReferenceIdeal.Read
import proofs.«150963_j30940944400974_1_alg».proof.Proof.ReferenceStep
import proofs.«150963_j30940944400974_1_alg».proof.Proof.KernelArrays

noncomputable section

namespace Cert.Proof

open Idealize.ShloMosaic Idealize.SL.Sem Cert.LifStep

/-- The kernel as printed runs to the end and leaves its arguments alone. -/
theorem frame_kernel : Cert.frame_Kernel := fun m ρ _ => Cert.Kernel.Gen.frame m ρ

/-- So does its idealization. -/
theorem frame_kernel_ideal : Cert.frame_KernelIdeal := fun m ρ _ => Cert.KernelIdeal.Gen.frame m ρ

/-- The reference has no kernel: its frame is its run with the results dropped. -/
theorem frame_reference_ideal : Cert.frame_ReferenceIdeal := fun m ρ _ =>
  (θ_run Cert.ReferenceIdeal.defs _ _).mono (fun _ h c => (h c).2.2.2)
    (Cert.ReferenceIdeal.Value.run (F := Ideal) m ρ)

/-- The idealization rewrote no operation. -/
theorem preserves : Cert.preserves_Kernel_KernelIdeal := trivial

/-- From memories that agree on the five arguments, the kernel ends with `membrane`, `trace` and
    `spikes` of its arguments, and the reference with the same three functions of its own. -/
theorem algebraic : Cert.algebraic_KernelIdeal_ReferenceIdeal := by
  intro m ρ m' ρ' _ hagree
  refine ⟨fun c => membrane (Kernel.xArr m c) (Kernel.uArr m c) (Kernel.wArr m c) (Kernel.bArr m c),
    fun c => trace (Kernel.xArr m c) (Kernel.aArr m c),
    fun c => spikes (Kernel.xArr m c) (Kernel.uArr m c) (Kernel.wArr m c) (Kernel.bArr m c),
    Kernel.run m ρ, ?_⟩
  refine (θ_run Cert.ReferenceIdeal.defs _ _).mono (fun _ h c => ?_)
    (Cert.ReferenceIdeal.Value.run (F := Ideal) m' ρ')
  obtain ⟨h12, h15, h9, hargs⟩ := h c
  obtain ⟨a0, a1, a2, a3, a4⟩ := hagree c
  refine ⟨?_, ?_, ?_, hargs⟩
  · rw [h12, Cert.ReferenceIdeal.Read.val_main_v12_eq, Reference.membrane_eq, a0, a1, a3, a4]
  · rw [h15, Cert.ReferenceIdeal.Read.val_main_v15_eq, Reference.trace_eq, a0, a2]
  · rw [h9, Cert.ReferenceIdeal.Read.val_main_v9_eq, Reference.spikes_eq, a0, a1, a3, a4]

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference_ideal, preserves, algebraic⟩

end Cert.Proof

end
